-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x1024 : Shape := ⟨2, ![2048, 1024]⟩
abbrev S1024 : Shape := ⟨1, ![1024]⟩
abbrev S1000x1024 : Shape := ⟨2, ![1000, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1000x1024 : S_.BroadcastsInDim S1000x1024 (![] : Fin 0 → Fin S1000x1024.rank)
  reducesTo_S1000x1024_S_d0_1 : S1000x1024.ReducesTo [0, 1] S_

variable [Facts]

def fn_part1 {F : FTy → Type} [FloatOps F] (main_v13 : IVec S_ 1) (main_v16 : IVec S1000x1024 1) : IVec S_ 1 :=
  let main_c_5 : IVec S_ 1 := constantI S_ 1 1#1
  let main_v17 : IVec S_ 1 := (fun x v => Host.reduce IntOp.andi x v reducesTo_S1000x1024_S_d0_1 h_S_) main_v16 main_c_5
  let main_v18 : IVec S_ 1 := andi main_v13 main_v17
  main_v18

def fn {F : FTy → Type} [FloatOps F] (main_arg0 : FVec F S8192x2048 .f32) (main_arg1 : FVec F S2048x1024 .f32) (main_arg2 : FVec F S1024 .f32) (main_arg3 : FVec F S1000x1024 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1000x1024 .f32 := Host.absf main_arg3
  let main_cst_4 : FVec F S_ .f32 := constant S_ .f32 0x7F800000#32
  let main_v15 : FVec F S1000x1024 .f32 := broadcastInDim S1000x1024 ![] bcast_S_S1000x1024 main_cst_4
  let main_v16 : IVec S1000x1024 1 := cmpf .olt main_v14 main_v15
  fn_part1 (F := F) main_v13 main_v16
-- ==== Kernel.lean ====
abbrev S8192x2048 : Shape := ⟨2, ![8192, 2048]⟩
abbrev S2048x1024 : Shape := ⟨2, ![2048, 1024]⟩
abbrev S1024 : Shape := ⟨1, ![1024]⟩
abbrev S1000x1024 : Shape := ⟨2, ![1000, 1024]⟩
abbrev S1024x1000 : Shape := ⟨2, ![1024, 1000]⟩
abbrev S1x1024 : Shape := ⟨2, ![1, 1024]⟩
abbrev S_ : Shape := ⟨0, ![]⟩
abbrev S1000 : Shape := ⟨1, ![1000]⟩
abbrev S1x1000 : Shape := ⟨2, ![1, 1000]⟩
abbrev S8192x1000 : Shape := ⟨2, ![8192, 1000]⟩
abbrev S512x2048 : Shape := ⟨2, ![512, 2048]⟩
abbrev S512x1000 : Shape := ⟨2, ![512, 1000]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S1024, .f32⟩
  | .hbm, ⟨3, _⟩ => ⟨S1000x1024, .f32⟩
  | .hbm, ⟨4, _⟩ => ⟨S2048x1024, .bf16⟩
  | .hbm, ⟨5, _⟩ => ⟨S1024x1000, .f32⟩
  | .hbm, ⟨6, _⟩ => ⟨S1024x1000, .bf16⟩
  | .hbm, ⟨7, _⟩ => ⟨S1x1024, .f32⟩
  | .hbm, ⟨8, _⟩ => ⟨S1000x1024, .f32⟩
  | .hbm, ⟨9, _⟩ => ⟨S_, .f32⟩
  | .hbm, ⟨10, _⟩ => ⟨S1000, .f32⟩
  | .hbm, ⟨11, _⟩ => ⟨S1x1000, .f32⟩
  | .hbm, ⟨12, _⟩ => ⟨S8192x1000, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x1024, .f32⟩
  | .local _ .vmem, ⟨4, _⟩ => ⟨S1024x1000, .bf16⟩
  | .local _ .vmem, ⟨5, _⟩ => ⟨S1x1000, .f32⟩
  | .local _ .vmem, ⟨6, _⟩ => ⟨S512x1000, .f32⟩
  | .local _ .vmem, ⟨7, _⟩ => ⟨S512x1000, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S1000x1024_S1024x1000_1_0 : S1000x1024.Transposes [1, 0] S1024x1000
  bcast_S1024_S1x1024_1 : S1024.BroadcastsInDim S1x1024 (![1] : Fin 1 → Fin S1x1024.rank)
  reducesTo_S1000x1024_S1000_d1 : S1000x1024.ReducesTo [1] S1000
  h_S_ : 0 < S_.numel
  bcast_S1000_S1x1000_1 : S1000.BroadcastsInDim S1x1000 (![1] : Fin 1 → Fin S1x1000.rank)
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S512x1_S512x1000 : S512x1.Broadcasts S512x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  dot_S512x2048_S2048x1024_S512x1024_1_0_0_1_n_n_wf : DotDims.WF S512x2048 S2048x1024 S512x1024 [1] [0] [0] [1] [] []
  dot_S512x1024_S1024x1000_S512x1000_1_0_0_1_n_n_wf : DotDims.WF S512x1024 S1024x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S1024x1000.size a
  hwx0_3 : ∀ i : grid0.Coords, EltTy.bits .bf16 = 32 ∨ (Rect.block (s := S1024x1000) S1024x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1000.size a ≤ S1x1000.size a
  hwx0_4 : ∀ i : grid0.Coords, EltTy.bits .f32 = 32 ∨ (Rect.block (s := S1x1000) S1x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1000.size a ≤ S8192x1000.size a
  hwx0_5 : ∀ i : grid0.Coords, EltTy.bits .f32 = 32 ∨ (Rect.block (s := S8192x1000) S512x1000.size (cc0_transform_5 i) (hinb0_5 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1000_S512x1000_1_0_0_1_n_n : DotDims S512x1024 S1024x1000 S512x1000 where
  lhsContracting := [1]
  rhsContracting := [0]
  lhsNonContracting := [0]
  rhsNonContracting := [1]
  lhsBatch := []
  rhsBatch := []
  wf := dot_S512x1024_S1024x1000_S512x1000_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x1024 : Shape := ⟨2, ![2048, 1024]⟩
abbrev S1024 : Shape := ⟨1, ![1024]⟩
abbrev S1000x1024 : Shape := ⟨2, ![1000, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1000 : Shape := ⟨1, ![1000]⟩
abbrev S1x1000 : Shape := ⟨2, ![1, 1000]⟩
abbrev S8192x1000 : Shape := ⟨2, ![8192, 1000]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S1024, .f32⟩
  | .hbm, ⟨3, _⟩ => ⟨S1000x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1000x1024, .f32⟩
  | .hbm, ⟨13, _⟩ => ⟨S_, .f32⟩
  | .hbm, ⟨14, _⟩ => ⟨S1000, .f32⟩
  | .hbm, ⟨15, _⟩ => ⟨S1x1000, .f32⟩
  | .hbm, ⟨16, _⟩ => ⟨S8192x1000, .f32⟩
  | .hbm, ⟨17, _⟩ => ⟨S8192x1000, .f32⟩
  | .hbm, ⟨18, _⟩ => ⟨S8192x1000, .f32⟩
  | .hbm, ⟨19, _⟩ => ⟨S8192x1000, .f32⟩
  | .hbm, ⟨20, _⟩ => ⟨S_, .f32⟩
  | .hbm, ⟨21, _⟩ => ⟨S8192x1000, .f32⟩
  | .hbm, ⟨22, _⟩ => ⟨S8192x1000, .f32⟩
  | .hbm, ⟨23, _⟩ => ⟨S8192x1000, .f32⟩
  | .hbm, ⟨24, _⟩ => ⟨S_, .f32⟩
  | .hbm, ⟨25, _⟩ => ⟨S8192x1000, .f32⟩
  | .hbm, ⟨26, _⟩ => ⟨S8192x1000, .f32⟩
  | .hbm, ⟨27, _⟩ => ⟨S8192x1000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  reducesTo_S1000x1024_S1000_d1 : S1000x1024.ReducesTo [1] S1000
  bcast_S1000_S1x1000_1 : S1000.BroadcastsInDim S1x1000 (![1] : Fin 1 → Fin S1x1000.rank)
  bcast_S8192x1_S8192x1000_0_1 : S8192x1.BroadcastsInDim S8192x1000 (![0, 1] : Fin 2 → Fin S8192x1000.rank)
  bcast_S1x1000_S8192x1000_0_1 : S1x1000.BroadcastsInDim S8192x1000 (![0, 1] : Fin 2 → Fin S8192x1000.rank)
  bcast_S_S8192x1000 : S_.BroadcastsInDim S8192x1000 (![] : Fin 0 → Fin S8192x1000.rank)
  dot_S8192x2048_S2048x1024_S8192x1024_1_0_0_1_n_n_wf : DotDims.WF S8192x2048 S2048x1024 S8192x1024 [1] [0] [0] [1] [] []
  dot_S8192x1024_S1000x1024_S8192x1000_1_1_0_0_n_n_wf : DotDims.WF S8192x1024 S1000x1024 S8192x1000 [1] [1] [0] [0] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1000x1024_S8192x1000_1_1_0_0_n_n : DotDims S8192x1024 S1000x1024 S8192x1000 where
  lhsContracting := [1]
  rhsContracting := [1]
  lhsNonContracting := [0]
  rhsNonContracting := [0]
  lhsBatch := []
  rhsBatch := []
  wf := dot_S8192x1024_S1000x1024_S8192x1000_1_1_0_0_n_n_wf

class Facts : Prop extends Facts₀ where

variable [Facts]
-- ==== Proof.NegMse.lean ====
/-
  The function both programs compute, stated once over the four argument arrays and over no program.

  With encoder features  z[r, d] = (∑ k, x[r, k] · w[k, d]) + b[d]  (r < 8192, d < 1024, k < 2048) and prototypes
  p[c, d] (c < 1000), the result at (r, c) is the negated mean squared distance of row r's feature to prototype c,
  expanded as  -((‖z[r]‖² + ‖p[c]‖² - 2 · ⟨z[r], p[c]⟩) / 1024).
  Everything is an extended real: the sums are `Finset` sums over the contracted coordinate, the constant `2`
  stays the float pattern both programs spell, and the division is the extended reals' `Ideal.div`.

  The one law that joins the two programs is about the last two steps only: the kernel multiplies by the float
  `2⁻¹⁰` and subtracts from zero, the reference divides by the float `1024` and negates. `2⁻¹⁰` is a power of two,
  so its pattern denotes exactly `1/1024`, and dividing an extended real by the nonzero real `1024` IS multiplying by
  `1/1024` (at the infinities too); `0 - y = -y` holds on every extended real.
-/
import Idealize.ShloMosaic.PureOps.Ideal
import Idealize.ShloMosaic.PureOps.Ideal.Laws
import Idealize.ShloMosaic.Lib.ValueIdx

noncomputable section

namespace Cert.NegMse

open Idealize.ShloMosaic Idealize.ShloMosaic.ValueIdx

/-! ## The two scale constants -/

/-- The reference's divisor `1024.0` denotes the real `1024`. -/
theorem ofBits_1024 : Ideal.ofBits .f32 0x44800000#32 = ((1024 : ℝ) : EReal) := by
  simp [Ideal.ofBits, Ideal.ieee, -EReal.coe_mul]; norm_num

/-- The kernel's factor `9.765625e-4` is the power of two `2⁻¹⁰`, so it denotes exactly `1/1024`. -/
theorem ofBits_inv1024 : Ideal.ofBits .f32 0x3A800000#32 = ((1 / 1024 : ℝ) : EReal) := by
  simp [Ideal.ofBits, Ideal.ieee, -EReal.coe_mul]; norm_num

/-- Scaling by `2⁻¹⁰` and subtracting from zero is dividing by `1024` and negating, on every extended real. -/
theorem zero_sub_mul_inv (y : EReal) :
    Ideal.ofBits .f32 0x00000000#32 - y * Ideal.ofBits .f32 0x3A800000#32
      = -(Ideal.div y (Ideal.ofBits .f32 0x44800000#32)) := by
  rw [Ideal.ofBits_zero_f32, ofBits_1024, ofBits_inv1024, Ideal.div_coe (by norm_num : (1024 : ℝ) ≠ 0), zero_sub]

/-! ## The function -/

section
variable (x : FVec Ideal ⟨2, ![8192, 2048]⟩ .f32) (w : FVec Ideal ⟨2, ![2048, 1024]⟩ .f32)
  (b : FVec Ideal ⟨1, ![1024]⟩ .f32) (p : FVec Ideal ⟨2, ![1000, 1024]⟩ .f32)

/-- The encoder feature of row `r` at coordinate `d`: the row of `x` against the column of `w`, plus the bias. -/
def feat (r : Fin 8192) (d : Fin 1024) : EReal :=
  (∑ k : Fin 2048, x (ix2 r k) * w (ix2 k d)) + b (ix1 d)

/-- The squared norm of row `r`'s feature. -/
def featSq (r : Fin 8192) : EReal := ∑ d : Fin 1024, feat x w b r d * feat x w b r d

/-- The squared norm of prototype `c`. -/
def protoSq (c : Fin 1000) : EReal := ∑ d : Fin 1024, p (ix2 c d) * p (ix2 c d)

/-- The inner product of row `r`'s feature with prototype `c`. -/
def cross (r : Fin 8192) (c : Fin 1000) : EReal := ∑ d : Fin 1024, feat x w b r d * p (ix2 c d)

/-- The result at row `r`, prototype `c`. -/
def at_ (r : Fin 8192) (c : Fin 1000) : EReal :=
  -(Ideal.div ((featSq x w b r + protoSq p c) - Ideal.ofBits .f32 0x40000000#32 * cross x w b p r c)
      (Ideal.ofBits .f32 0x44800000#32))

/-- The result array. -/
def arr : FVec Ideal ⟨2, ![8192, 1000]⟩ .f32 := fun i => at_ x w b p (i 0) (i 1)

theorem arr_ix2 (r : Fin 8192) (c : Fin 1000) : arr x w b p (ix2 r c) = at_ x w b p r c := rfl

end

end Cert.NegMse

end
-- ==== Proof.RefAsNegMse.lean ====
/-
  The reference's result is the function of Proof/NegMse.lean.

  The reference computes the features once for all 8192 rows (a `dot_general` contracting the 2048 input
  coordinates, plus the broadcast bias), then three row-wise quantities — the features' squared norms (a sum over the
  1024 feature coordinates, broadcast along the prototypes), the prototypes' squared norms (the same sum over the
  prototype rows, broadcast along the batch) and the inner products (a `dot_general` contracting the feature
  coordinate of both operands) — and combines them pointwise. Read at an index, every broadcast only renames the
  index, each `dot_general` and each sum is a `Finset` sum over the contracted coordinate, and each sum's initial
  value is the zero pattern, which adds nothing. What is left is `NegMse.at_` term for term.
-/
import proofs.«101211_j48490180772265_1_alg».proof.Proof.Gen.ReferenceIdeal.Read
import proofs.«101211_j48490180772265_1_alg».proof.Proof.NegMse

noncomputable section

namespace Cert.ReferenceIdeal.AsNegMse

open Cert.ReferenceIdeal Cert.ReferenceIdeal.Read Idealize.ShloMosaic Idealize.ShloMosaic.ValueIdx

variable (x0 : FVec Ideal S8192x2048 .f32) (x1 : FVec Ideal S2048x1024 .f32) (x2 : FVec Ideal S1024 .f32)
  (x3 : FVec Ideal S1000x1024 .f32)

/-- The feature stage at (r, d): the contraction over the input coordinate, plus the bias at d. -/
theorem feat_eq (r : Fin 8192) (d : Fin 1024) :
    val_main_v3 (F := Ideal) x0 x1 x2 (ix2 r d) = NegMse.feat x0 x1 x2 r d := by
  rw [val_main_v3_apply, val_main_v0_apply, val_main_v2_apply, val_main_v1_apply]
  have el : ∀ k : Fin 2048, lidx_main_v0 (ix2 r d) k = ix2 r k := fun k => funext fun a => Fin.ext (by
    match a with | ⟨0, _⟩ => rfl | ⟨1, _⟩ => rfl)
  have er : ∀ k : Fin 2048, ridx_main_v0 (ix2 r d) k = ix2 k d := fun k => funext fun a => Fin.ext (by
    match a with | ⟨0, _⟩ => rfl | ⟨1, _⟩ => rfl)
  have eb : idx_main_v1 (idx_main_v2 (ix2 r d)) = ix1 d := funext fun a => Fin.ext (by
    match a with | ⟨0, _⟩ => rfl)
  simp only [el, er, eb, Ideal.addf_def]
  rfl

/-- The features' squared norms: the zero initial value plus the sum of squares over the feature coordinate. -/
theorem featSq_eq (r : Fin 8192) :
    val_main_v5 (F := Ideal) x0 x1 x2 (ix1 r) = NegMse.featSq x0 x1 x2 r := by
  rw [val_main_v5_apply, val_main_cst_apply, Ideal.ofBits_def, Ideal.ofBits_zero_f32, zero_add]
  refine Finset.sum_congr rfl fun d _ => ?_
  have e : idx_main_v5 (ix1 r) d = ix2 r d := funext fun a => Fin.ext (by
    match a with | ⟨0, _⟩ => rfl | ⟨1, _⟩ => rfl)
  rw [val_main_v4_apply, e, feat_eq, Ideal.mulf_def]

/-- The prototypes' squared norms, likewise. -/
theorem protoSq_eq (c : Fin 1000) :
    val_main_v8 (F := Ideal) x3 (ix1 c) = NegMse.protoSq x3 c := by
  rw [val_main_v8_apply, val_main_cst_0_apply, Ideal.ofBits_def, Ideal.ofBits_zero_f32, zero_add]
  refine Finset.sum_congr rfl fun d _ => ?_
  have e : idx_main_v8 (ix1 c) d = ix2 c d := funext fun a => Fin.ext (by
    match a with | ⟨0, _⟩ => rfl | ⟨1, _⟩ => rfl)
  rw [val_main_v7_apply, e, Ideal.mulf_def]

/-- The inner products: the contraction over the feature coordinate of the features and the prototype rows. -/
theorem cross_eq (r : Fin 8192) (c : Fin 1000) :
    val_main_v10 (F := Ideal) x0 x1 x2 x3 (ix2 r c) = NegMse.cross x0 x1 x2 x3 r c := by
  rw [val_main_v10_apply]
  refine Finset.sum_congr rfl fun d _ => ?_
  have el : lidx_main_v10 (ix2 r c) d = ix2 r d := funext fun a => Fin.ext (by
    match a with | ⟨0, _⟩ => rfl | ⟨1, _⟩ => rfl)
  have er : ridx_main_v10 (ix2 r c) d = ix2 c d := funext fun a => Fin.ext (by
    match a with | ⟨0, _⟩ => rfl | ⟨1, _⟩ => rfl)
  rw [el, er, feat_eq]

/-- The reference's last stage is the function. -/
theorem result_eq : val_main_v19 (F := Ideal) x0 x1 x2 x3 = NegMse.arr x0 x1 x2 x3 := by
  funext i
  obtain ⟨r, c, rfl⟩ : ∃ (r : Fin 8192) (c : Fin 1000), i = ix2 r c := ⟨i 0, i 1, eq_ix2 i⟩
  have e6 : idx_main_v6 (idx_main_v11 (ix2 r c)) = ix1 r := funext fun a => Fin.ext (by
    match a with | ⟨0, _⟩ => rfl)
  have e9 : idx_main_v9 (idx_main_v12 (ix2 r c)) = ix1 c := funext fun a => Fin.ext (by
    match a with | ⟨0, _⟩ => rfl)
  rw [NegMse.arr_ix2, val_main_v19_apply, val_main_v18_apply, val_main_v16_apply, val_main_v13_apply,
    val_main_v11_apply, val_main_v6_apply, e6, featSq_eq, val_main_v12_apply, val_main_v9_apply, e9, protoSq_eq,
    val_main_v15_apply, val_main_v14_apply, val_main_cst_1_apply, cross_eq, val_main_v17_apply, val_main_cst_2_apply]
  rfl

end Cert.ReferenceIdeal.AsNegMse

end
-- ==== Proof.KernelBlock.lean ====
/-
  What the kernel body computes from its five loaded blocks, read at one index of the output block.

  At one grid point the body holds 512 rows of `x` (all 2048 input coordinates), the whole `w` and bias row, the whole
  transposed prototype matrix `pt` (feature coordinate first) and the row of prototype squared norms `n`. It forms the
  512 × 1024 block of features `z = x · w + b` by one matrix product into a zero accumulator and a row broadcast, sums
  `z · z` along the feature coordinate (kept as a 512 × 1 column and broadcast along the prototypes), multiplies `z`
  against `pt` by a second matrix product, and combines pointwise. Read at (p, q):

    0 - (((∑ d, z[p,d]²) + n[0,q]) - 2 · ∑ d, z[p,d] · pt[d,q]) · 2⁻¹⁰ ,   z[p,d] = (∑ k, x[p,k] · w[k,d]) + b[0,d].

  The changes of float format are the identity on extended reals, each matrix product into the zero accumulator is the
  plain sum over its one contracted coordinate, and the lane reduction is the plain sum over the feature coordinate.
-/
import proofs.«101211_j48490180772265_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## The first matrix product: rows of `x` against columns of `w`, contracting the 2048 input coordinates -/

theorem lhsA_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhsA_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhsA_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhsA_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Into the zero accumulator the product at (p, d) is `∑ k, a[p,k] · b[k,d]`. -/
theorem matmulA_apply (a : FVec Ideal S512x2048 .bf16) (b : FVec Ideal S2048x1024 .bf16) (p : Fin 512) (d : Fin 1024) :
    matmul dot_S512x2048_S2048x1024_S512x1024_1_0_0_1_n_n none a b (constant S512x1024 .f32 0x00000000#32) (ix2 p d)
      = ∑ k : Fin 2048, a (ix2 p k) * b (ix2 k d) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p d) ((contrEquiv1 dot_S512x2048_S2048x1024_S512x1024_1_0_0_1_n_n 2048 rfl rfl).symm k) = ix2 p k := funext fun ax => Fin.ext (by
    match ax with
    | ⟨0, _⟩ => exact lhsA_0 _ _
    | ⟨1, _⟩ => exact (lhsA_1 _ _).trans hk)
  have er : dot_S512x2048_S2048x1024_S512x1024_1_0_0_1_n_n.rhsIdx (ix2 p d) ((contrEquiv1 dot_S512x2048_S2048x1024_S512x1024_1_0_0_1_n_n 2048 rfl rfl).symm k) = ix2 k d := funext fun ax => Fin.ext (by
    match ax with
    | ⟨0, _⟩ => exact (rhsA_0 _ _).trans hk
    | ⟨1, _⟩ => exact rhsA_1 _ _)
  rw [el, er]

/-! ## The second matrix product: feature rows against the transposed prototypes, contracting the 1024 feature coordinates -/

theorem lhsB_0 (i : S512x1000.Idx) (q : dot_S512x1024_S1024x1000_S512x1000_1_0_0_1_n_n.contr.Idx) :
    (dot_S512x1024_S1024x1000_S512x1000_1_0_0_1_n_n.lhsIdx i q 0).val = (i 0).val := by
  unfold DotDims.lhsIdx
  rw [dif_neg (show ¬(0 : Fin S512x1024.rank) ∈ dot_S512x1024_S1024x1000_S512x1000_1_0_0_1_n_n.lhsBatch by decide), dif_pos (show (0 : Fin S512x1024.rank) ∈ dot_S512x1024_S1024x1000_S512x1000_1_0_0_1_n_n.lhsNonContracting by decide)]
  rfl
theorem lhsB_1 (i : S512x1000.Idx) (q : dot_S512x1024_S1024x1000_S512x1000_1_0_0_1_n_n.contr.Idx) :
    (dot_S512x1024_S1024x1000_S512x1000_1_0_0_1_n_n.lhsIdx i q 1).val = (q ⟨0, by decide⟩).val :=
  dot_S512x1024_S1024x1000_S512x1000_1_0_0_1_n_n.lhsIdx_val_of_single rfl i q
theorem rhsB_0 (i : S512x1000.Idx) (q : dot_S512x1024_S1024x1000_S512x1000_1_0_0_1_n_n.contr.Idx) :
    (dot_S512x1024_S1024x1000_S512x1000_1_0_0_1_n_n.rhsIdx i q 0).val = (q ⟨0, by decide⟩).val :=
  dot_S512x1024_S1024x1000_S512x1000_1_0_0_1_n_n.rhsIdx_val_of_single rfl i q
theorem rhsB_1 (i : S512x1000.Idx) (q : dot_S512x1024_S1024x1000_S512x1000_1_0_0_1_n_n.contr.Idx) :
    (dot_S512x1024_S1024x1000_S512x1000_1_0_0_1_n_n.rhsIdx i q 1).val = (i 1).val := by
  unfold DotDims.rhsIdx
  rw [dif_neg (show ¬(1 : Fin S1024x1000.rank) ∈ dot_S512x1024_S1024x1000_S512x1000_1_0_0_1_n_n.rhsBatch by decide), dif_pos (show (1 : Fin S1024x1000.rank) ∈ dot_S512x1024_S1024x1000_S512x1000_1_0_0_1_n_n.rhsNonContracting by decide)]
  rfl

/-- Into the zero accumulator the product at (p, q) is `∑ d, a[p,d] · b[d,q]`. -/
theorem matmulB_apply (a : FVec Ideal S512x1024 .bf16) (b : FVec Ideal S1024x1000 .bf16) (p : Fin 512) (q : Fin 1000) :
    matmul dot_S512x1024_S1024x1000_S512x1000_1_0_0_1_n_n none a b (constant S512x1000 .f32 0x00000000#32) (ix2 p q)
      = ∑ d : Fin 1024, a (ix2 p d) * b (ix2 d q) := by
  simp only [matmul]
  rw [Ideal.matmul_constant_zero_apply, ← Equiv.sum_comp (contrEquiv1 dot_S512x1024_S1024x1000_S512x1000_1_0_0_1_n_n 1024 rfl rfl).symm]
  refine Finset.sum_congr rfl fun k _ => ?_
  have hk := contrEquiv1_symm_val dot_S512x1024_S1024x1000_S512x1000_1_0_0_1_n_n 1024 rfl rfl k
  have el : dot_S512x1024_S1024x1000_S512x1000_1_0_0_1_n_n.lhsIdx (ix2 p q) ((contrEquiv1 dot_S512x1024_S1024x1000_S512x1000_1_0_0_1_n_n 1024 rfl rfl).symm k) = ix2 p k := funext fun ax => Fin.ext (by
    match ax with
    | ⟨0, _⟩ => exact lhsB_0 _ _
    | ⟨1, _⟩ => exact (lhsB_1 _ _).trans hk)
  have er : dot_S512x1024_S1024x1000_S512x1000_1_0_0_1_n_n.rhsIdx (ix2 p q) ((contrEquiv1 dot_S512x1024_S1024x1000_S512x1000_1_0_0_1_n_n 1024 rfl rfl).symm k) = ix2 k q := funext fun ax => Fin.ext (by
    match ax with
    | ⟨0, _⟩ => exact (rhsB_0 _ _).trans hk
    | ⟨1, _⟩ => exact rhsB_1 _ _)
  rw [el, er]

/-! ## The row sum, kept as a column and broadcast along the prototypes -/

/-- The squared norms of a block's rows: the lane reduction of the pointwise square, as the body spells it. -/
def rowSq (z : FVec Ideal S512x1024 .f32) : FVec Ideal S512 .f32 :=
  multiReduction .add [1] S512 (mulf z z) 0x00000000#32 reduces_S512x1024_S512 (.inl rfl) rfl

/-- At row p it is the sum of the squares over the 1024 lanes. -/
theorem rowSq_apply (z : FVec Ideal S512x1024 .f32) (p : Fin 512) :
    rowSq z (ix1 p) = ∑ d : Fin 1024, z (ix2 p d) * z (ix2 p d) := by
  refine (Ideal.multiReduction_add_single (mulf z z) 0x00000000#32 reduces_S512x1024_S512 (.inl rfl) rfl (ix1 p)).trans ?_
  refine Finset.sum_congr rfl fun d _ => ?_
  have e : reduces_S512x1024_S512.lift (ix1 p) d = ix2 p d := funext fun ax => Fin.ext (by
    match ax with
    | ⟨0, _⟩ => rfl
    | ⟨1, _⟩ => rfl)
  rw [e]
  rfl

/-- A 512-vector recast as a 512 × 1 column reads, at (p, 0), the vector at p. -/
theorem column_apply {α : Type} (v : S512.Idx → α) (p : Fin 512) :
    shapeCast S512x1 v shapeCasts_S512_S512x1 (ix2 p (0 : Fin 1)) = v (ix1 p) := by
  refine shapeCast_apply v shapeCasts_S512_S512x1 (ix2 p (0 : Fin 1)) (ix1 p) ?_
  rw [Shape.rowMajor_val_one, Shape.rowMajor_val_two]
  show p.val = p.val * 1 + 0
  omega

/-- A 512 × 1 column broadcast along 1000 columns reads, at (p, q), the column at (p, 0). -/
theorem alongCols_apply {α : Type} (v : S512x1.Idx → α) (p : Fin 512) (q : Fin 1000) :
    broadcastTo S512x1000 v broadcasts_S512x1_S512x1000 (ix2 p q) = v (ix2 p (0 : Fin 1)) := by
  refine broadcastTo_apply v broadcasts_S512x1_S512x1000 (ix2 p q) (ix2 p (0 : Fin 1)) fun ax => ?_
  match ax with
  | ⟨0, _⟩ => rfl
  | ⟨1, _⟩ => rfl

/-! ## The body's value at an index -/

section
variable (v0 : FVec Ideal S512x2048 .f32) (v2 : FVec Ideal S2048x1024 .bf16) (v5 : FVec Ideal S1x1024 .f32)
  (v13 : FVec Ideal S1024x1000 .bf16) (v16 : FVec Ideal S1x1000 .f32)

/-- The block of features as the body forms it. -/
def feats : FVec Ideal S512x1024 .f32 :=
  addf (matmul dot_S512x2048_S2048x1024_S512x1024_1_0_0_1_n_n none (truncf .bf16 v0 bitsLt_bf16_f32) (shapeCast S2048x1024 v2 shapeCasts_S2048x1024_S2048x1024)
      (constant S512x1024 .f32 0x00000000#32))
    (broadcastTo S512x1024 (shapeCast S1x1024 v5 shapeCasts_S1x1024_S1x1024) broadcasts_S1x1024_S512x1024)

/-- At (p, d) it is the row of `x` against the column of `w`, plus the bias row at d. -/
theorem feats_apply (p : Fin 512) (d : Fin 1024) :
    feats v0 v2 v5 (ix2 p d) = (∑ k : Fin 2048, v0 (ix2 p k) * v2 (ix2 k d)) + v5 (ix2 (0 : Fin 1) d) := by
  unfold feats
  rw [addf_apply, matmulA_apply, shapeCast_self, shapeCast_self, broadcastTo_1b_ab_apply]
  rfl

/-- The body's remaining steps over a block of features `z`. -/
def combine (z : FVec Ideal S512x1024 .f32) : FVec Ideal S512x1000 .f32 :=
  subf (broadcast S512x1000 (Scalar.ofBits .f32 0x00000000#32))
    (mulf
      (subf
        (addf
          (broadcastTo S512x1000
            (shapeCast S512x1 (rowSq z) shapeCasts_S512_S512x1) broadcasts_S512x1_S512x1000)
          (broadcastTo S512x1000 (shapeCast S1x1000 v16 shapeCasts_S1x1000_S1x1000) broadcasts_S1x1000_S512x1000))
        (mulf (broadcast S512x1000 (Scalar.ofBits .f32 0x40000000#32))
          (matmul dot_S512x1024_S1024x1000_S512x1000_1_0_0_1_n_n none (truncf .bf16 z bitsLt_bf16_f32)
            (shapeCast S1024x1000 v13 shapeCasts_S1024x1000_S1024x1000) (constant S512x1000 .f32 0x00000000#32))))
      (broadcast S512x1000 (Scalar.ofBits .f32 0x3A800000#32)))

/-- The body's stored value is those steps over its block of features (the printed lets, substituted). -/
theorem pay_eq : k0_pay1 (F := Ideal) v0 v2 v5 v13 v16 = combine v13 v16 (feats v0 v2 v5) := rfl

/-- The remaining steps read at (p, q). -/
theorem combine_apply (z : FVec Ideal S512x1024 .f32) (p : Fin 512) (q : Fin 1000) :
    combine v13 v16 z (ix2 p q)
      = Ideal.ofBits .f32 0x00000000#32
        - (((∑ d : Fin 1024, z (ix2 p d) * z (ix2 p d)) + v16 (ix2 (0 : Fin 1) q))
            - Ideal.ofBits .f32 0x40000000#32 * ∑ d : Fin 1024, z (ix2 p d) * v13 (ix2 d q))
          * Ideal.ofBits .f32 0x3A800000#32 := by
  unfold combine
  rw [subf_apply, mulf_apply, subf_apply, addf_apply, mulf_apply, alongCols_apply, column_apply, rowSq_apply,
    shapeCast_self, broadcastTo_1b_ab_apply, matmulB_apply, shapeCast_self]
  rfl

end

end Cert.KernelIdeal.Block

end
-- ==== Proof.KernelArray.lean ====
/-
  From the body's blocks to the whole result array.

  The grid has 16 points; point t is given rows 512·t … 512·t + 511 of `x` (window 0) and writes the same rows of the
  result (window 5); the other four windows are whole arrays the host wrote before the launch, the same at every point:
  `w` with its float format changed (the identity on extended reals), the bias as a 1 × 1024 row, the prototypes
  transposed (so that entry (d, q) is prototype q's coordinate d), and the 1 × 1000 row of prototype squared norms
  (the zero initial value plus the sum of squares over the feature coordinate).
  Reading each block at the array index under it turns the body's value at (p, q) of point t (Proof/KernelBlock.lean)
  into `NegMse.at_` at row 512·t + p, prototype q, up to the last two steps, which the scale law joins. The 16 row
  blocks tile the 8192 rows (row r is in block r / 512), so the array after the run is `NegMse.arr` everywhere.
-/
import proofs.«101211_j48490180772265_1_alg».proof.Proof.Gen.KernelIdeal.Value
import proofs.«101211_j48490180772265_1_alg».proof.Proof.KernelBlock
import proofs.«101211_j48490180772265_1_alg».proof.Proof.NegMse
import Idealize.ShloMosaic.Lib.StableHlo.Run
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays and the blocks, under their literal types -/

abbrev xArr (c : Dev nD) : FVec Ideal S8192x2048 .f32 := m ((c : Thread nD τ).loc main_arg0)
abbrev wArr (c : Dev nD) : FVec Ideal S2048x1024 .f32 := m ((c : Thread nD τ).loc main_arg1)
abbrev bArr (c : Dev nD) : FVec Ideal S1024 .f32 := m ((c : Thread nD τ).loc main_arg2)
abbrev pArr (c : Dev nD) : FVec Ideal S1000x1024 .f32 := m ((c : Thread nD τ).loc main_arg3)

abbrev xBlk (c : Dev nD) (t : Fin cfg0.N) : FVec Ideal S512x2048 .f32 := iblk m c 0 t
abbrev wBlk (c : Dev nD) (t : Fin cfg0.N) : FVec Ideal S2048x1024 .bf16 := iblk m c 1 t
abbrev bBlk (c : Dev nD) (t : Fin cfg0.N) : FVec Ideal S1x1024 .f32 := iblk m c 2 t
abbrev ptBlk (c : Dev nD) (t : Fin cfg0.N) : FVec Ideal S1024x1000 .bf16 := iblk m c 3 t
abbrev nBlk (c : Dev nD) (t : Fin cfg0.N) : FVec Ideal S1x1000 .f32 := iblk m c 4 t

/-! ## What the host wrote before the launch -/

theorem V_w (c : Dev nD) :
    (V m c main_v0 : S2048x1024.Idx → EReal) = truncf .bf16 (wArr m c) bitsLt_bf16_f32 := by
  dsimp only [Gen.V, Gen.hostOps0]; after_results

theorem V_b (c : Dev nD) :
    (V m c main_v3 : S1x1024.Idx → EReal) = broadcastInDim S1x1024 ![1] bcast_S1024_S1x1024_1 (bArr m c) := by
  dsimp only [Gen.V, Gen.hostOps0]; after_results

theorem V_pt (c : Dev nD) :
    (V m c main_v2 : S1024x1000.Idx → EReal)
      = truncf .bf16 (transpose S1024x1000 [1, 0] (pArr m c) transposes_S1000x1024_S1024x1000_1_0) bitsLt_bf16_f32 := by
  dsimp only [Gen.V, Gen.hostOps0]; after_results

theorem V_n (c : Dev nD) :
    (V m c main_v6 : S1x1000.Idx → EReal)
      = broadcastInDim S1x1000 ![1] bcast_S1000_S1x1000_1
          (Host.reduceAdd (F := Ideal) (mulf (pArr m c) (pArr m c)) (constant (F := Ideal) S_ .f32 0x00000000#32)
            reducesTo_S1000x1024_S1000_d1 h_S_) := by
  dsimp only [Gen.V, Gen.hostOps0]; after_results

/-! ## The grid's index maps, decided over the 16 points -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is row 512·t + p of the array. -/
def row (t : Fin cfg0.N) (p : Fin 512) : Fin 8192 :=
  ⟨t.val * 512 + p.val, by
    have ht : t.val < 16 := lt_of_lt_of_eq t.isLt (N_0 : cfg0.N = 16)
    have := p.isLt; omega⟩

/-! ## Each block read at the array index under it -/

theorem xBlk_apply (c : Dev nD) (t : Fin cfg0.N) (p : Fin 512) (k : Fin 2048) :
    xBlk m c t (ix2 p k) = xArr m c (ix2 (row t p) k) := by
  obtain ⟨e0, e1, -⟩ := idx_facts t
  show iblk m c 0 t (ix2 p k) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * p.val = t.val * 512 + p.val; omega
  | ⟨1, _⟩ => show win0_0.index t (1 : Fin 2) * 2048 + 1 * k.val = k.val; omega

theorem wBlk_apply (c : Dev nD) (t : Fin cfg0.N) (k : Fin 2048) (d : Fin 1024) :
    wBlk m c t (ix2 k d) = wArr m c (ix2 k d) := by
  obtain ⟨-, -, e0, e1, -⟩ := idx_facts t
  show iblk m c 1 t (ix2 k d) = _
  unfold iblk
  rw [View.read_apply]
  show (V m c main_v0 : S2048x1024.Idx → EReal) _ = _
  rw [V_w]
  show wArr m c _ = _
  refine congrArg (wArr m c) (funext fun a => Fin.ext ?_)
  match a with
  | ⟨0, _⟩ => show win0_1.index t (0 : Fin 2) * 2048 + 1 * k.val = k.val; omega
  | ⟨1, _⟩ => show win0_1.index t (1 : Fin 2) * 1024 + 1 * d.val = d.val; omega

theorem bBlk_apply (c : Dev nD) (t : Fin cfg0.N) (d : Fin 1024) :
    bBlk m c t (ix2 (0 : Fin 1) d) = bArr m c (ix1 d) := by
  obtain ⟨-, -, -, -, e0, e1, -⟩ := idx_facts t
  show iblk m c 2 t (ix2 (0 : Fin 1) d) = _
  unfold iblk
  rw [View.read_apply]
  show (V m c main_v3 : S1x1024.Idx → EReal) _ = _
  rw [V_b]
  refine broadcastInDim_apply _ bcast_S1024_S1x1024_1 (bArr m c) _ (ix1 d) fun a => ?_
  match a with
  | ⟨0, _⟩ =>
    show d.val = if (1024 : Nat) = 1 then 0 else win0_2.index t (1 : Fin 2) * 1024 + 1 * d.val
    rw [if_neg (by decide)]; omega

theorem ptBlk_apply (c : Dev nD) (t : Fin cfg0.N) (d : Fin 1024) (q : Fin 1000) :
    ptBlk m c t (ix2 d q) = pArr m c (ix2 q d) := by
  obtain ⟨-, -, -, -, -, -, e0, e1, -⟩ := idx_facts t
  show iblk m c 3 t (ix2 d q) = _
  unfold iblk
  rw [View.read_apply]
  show (V m c main_v2 : S1024x1000.Idx → EReal) _ = _
  rw [V_pt]
  have e : (((cfg0.win 3).blk t).view.emb (ix2 d q) : S1024x1000.Idx) = ix2 d q := funext fun a => Fin.ext (by
    match a with
    | ⟨0, _⟩ => show win0_3.index t (0 : Fin 2) * 1024 + 1 * d.val = d.val; omega
    | ⟨1, _⟩ => show win0_3.index t (1 : Fin 2) * 1000 + 1 * q.val = q.val; omega)
  rw [e, truncf_apply, transpose_ix2_apply]

theorem nBlk_apply (c : Dev nD) (t : Fin cfg0.N) (q : Fin 1000) :
    nBlk m c t (ix2 (0 : Fin 1) q) = NegMse.protoSq (pArr m c) q := by
  obtain ⟨-, -, -, -, -, -, -, -, e0, e1, -⟩ := idx_facts t
  show iblk m c 4 t (ix2 (0 : Fin 1) q) = _
  unfold iblk
  rw [View.read_apply]
  show (V m c main_v6 : S1x1000.Idx → EReal) _ = _
  rw [V_n]
  refine (broadcastInDim_apply _ bcast_S1000_S1x1000_1 _ _ (ix1 q) fun a => ?_).trans ?_
  · match a with
    | ⟨0, _⟩ =>
      show q.val = if (1000 : Nat) = 1 then 0 else win0_4.index t (1 : Fin 2) * 1000 + 1 * q.val
      rw [if_neg (by decide)]; omega
  · simp only [Host.reduceAdd, Ideal.hostReduceAdd_def]
    rw [Ideal.hostReduceAdd_single reducesTo_S1000x1024_S1000_d1 (by decide)]
    show Ideal.ofBits .f32 0x00000000#32 + _ = _
    rw [Ideal.ofBits_zero_f32, zero_add]
    unfold NegMse.protoSq
    refine Finset.sum_congr rfl fun d _ => ?_
    have e : (Shape.Reduces.lift (s := S1000x1024) (t := S1000) (by decide) (ix1 q) d : S1000x1024.Idx) = ix2 q d :=
      funext fun a => Fin.ext (by
        match a with
        | ⟨0, _⟩ => rfl
        | ⟨1, _⟩ => rfl)
    rw [e]
    rfl

/-! ## The body's value at one index of point t's block -/

theorem hz : (![0, 0] : Fin 2 → Nat) = fun _ => 0 := funext fun a => by fin_cases a <;> rfl

/-- Point t's stored block at (p, q) is the function at row 512·t + p, prototype q: the blocks read at the array,
    the feature, its squared norm and the inner product recognised, and the scale law for the last two steps. -/
theorem block_apply (c : Dev nD) (t : Fin cfg0.N) (p : Fin 512) (q : Fin 1000) :
    k0_pay1 (F := Ideal) (xBlk m c t) (wBlk m c t) (bBlk m c t) (ptBlk m c t) (nBlk m c t) (ix2 p q)
      = NegMse.at_ (xArr m c) (wArr m c) (bArr m c) (pArr m c) (row t p) q := by
  refine (congrFun (Block.pay_eq (xBlk m c t) (wBlk m c t) (bBlk m c t) (ptBlk m c t) (nBlk m c t)) (ix2 p q)).trans ?_
  rw [Block.combine_apply (ptBlk m c t) (nBlk m c t) (Block.feats (xBlk m c t) (wBlk m c t) (bBlk m c t)) p q]
  simp only [Block.feats_apply (xBlk m c t) (wBlk m c t) (bBlk m c t), xBlk_apply m c t, wBlk_apply m c t,
    bBlk_apply m c t, ptBlk_apply m c t, nBlk_apply m c t]
  rw [NegMse.zero_sub_mul_inv]
  rfl

/-! ## What each point writes back, the cover, and the array after the run -/

/-- What point t writes back is block t of the function of the argument arrays. -/
theorem flushed_eq (c : Dev nD) (t : Fin cfg0.N) :
    (dats m 0 c).flushed 5 t
      = ((cfg0.win 5).blk t).view.read (Elt Ideal) (NegMse.arr (xArr m c) (wArr m c) (bArr m c) (pArr m c)) := by
  rw [Value.flushed5]
  unfold out0_5
  rw [View.canon_unit_zero hz]
  simp only [View.ld_unit_zero (S := S512x2048) hz, View.ld_unit_zero (S := S2048x1024) hz,
    View.ld_unit_zero (S := S1x1024) hz, View.ld_unit_zero (S := S1024x1000) hz, View.ld_unit_zero (S := S1x1000) hz]
  obtain ⟨-, -, -, -, -, -, -, -, -, -, e0, e1⟩ := idx_facts t
  funext j
  obtain ⟨p, q, rfl⟩ : ∃ (p : Fin 512) (q : Fin 1000), j = ix2 p q := ⟨j 0, j 1, eq_ix2 j⟩
  have hj : (((cfg0.win 5).blk t).view.emb (ix2 p q) : S8192x1000.Idx) = ix2 (row t p) q := funext fun a => Fin.ext (by
    match a with
    | ⟨0, _⟩ => show win0_5.index t (0 : Fin 2) * 512 + 1 * p.val = t.val * 512 + p.val; omega
    | ⟨1, _⟩ => show win0_5.index t (1 : Fin 2) * 1000 + 1 * q.val = q.val; omega)
  rw [View.read_apply]
  show k0_pay1 (F := Ideal) (xBlk m c t) (wBlk m c t) (bBlk m c t) (ptBlk m c t) (nBlk m c t) (ix2 p q)
    = NegMse.arr (xArr m c) (wArr m c) (bArr m c) (pArr m c) (((cfg0.win 5).blk t).view.emb (ix2 p q))
  rw [hj, NegMse.arr_ix2]
  exact block_apply m c t p q

/-- An index of the result array is in point t's block iff each coordinate is in the block's range on its axis. -/
theorem mem_blk (t : Fin cfg0.N) (i : S8192x1000.Idx) :
    i ∈ ((cfg0.win 5).blk t).view.set ↔ ∀ a : Fin 2, win0_5.index t a * S512x1000.size a ≤ (i a).val
      ∧ (i a).val < win0_5.index t a * S512x1000.size a + S512x1000.size a := by
  show i ∈ ((View.whole main_v7).slice (win0_5.rect t)).set ↔ _
  rw [View.set_slice_whole, Rect.mem_set_unit]
  exact Iff.rfl

/-- The 16 row blocks tile the array: row r lies in the block of point r / 512. -/
theorem covered (i : S8192x1000.Idx) :
    ∃ t : Fin cfg0.N, (cfg0.win 5).flush t = true ∧ i ∈ ((cfg0.win 5).blk t).view.set := by
  have hi0 : (i 0).val < 8192 := (i 0).isLt
  have hi1 : (i 1).val < 1000 := (i 1).isLt
  obtain ⟨t, ht⟩ : ∃ t : Fin cfg0.N, t.val = (i 0).val / 512 :=
    ⟨⟨(i 0).val / 512, lt_of_lt_of_eq (by omega : (i 0).val / 512 < 16) (N_0 : cfg0.N = 16).symm⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1000 ≤ (i 1).val ∧ (i 1).val < win0_5.index t (1 : Fin 2) * 1000 + 1000
    omega

/-- The result array after the run is the function of the argument arrays, everywhere. -/
theorem final (c : Dev nD) :
    (dats m 0 c).arrAt 5 cfg0.N = NegMse.arr (xArr m c) (wArr m c) (bArr m c) (pArr m c) :=
  (dats m 0 c).arrAt_eq_of_cover 5 (NegMse.arr (xArr m c) (wArr m c) (bArr m c) (pArr m c))
    (fun t _ => flushed_eq m c t) covered

/-- The kernel's run: every weakly fair execution ends with the result array at the function and the arguments unchanged. -/
theorem run : θ_run defs (onTc (τ := τ) (main (F := Ideal))) ⟨m, fun _ => 0, ρ⟩ fun r => ∀ c : Dev nD,
      r.2.mem ((c : Thread nD τ).loc main_v7) = NegMse.arr (xArr m c) (wArr m c) (bArr m c) (pArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.lean ====
/- The kernel and its reference compute one function of the four argument arrays (Proof/NegMse.lean): with the
   encoder features z = x · w + b, the result at row r and prototype c is
       -((‖z[r]‖² + ‖p[c]‖² - 2 · ⟨z[r], p[c]⟩) / 1024).
   The kernel computes it 512 rows at a time from blocks (Proof/KernelBlock.lean reads the body's value at an index;
   Proof/KernelArray.lean reads each block at the array and assembles the 16 row blocks into the whole array), with
   the prototypes transposed and the prototype norms computed beforehand on the host, multiplying by 2⁻¹⁰ and
   subtracting from zero at the end; the reference computes it whole, dividing by 1024 and negating
   (Proof/RefAsNegMse.lean). On the extended reals the sums need no reordering, the changes of float format are the
   identity, and the one law used is that dividing by the real 1024 is multiplying by 1/1024 and that 0 - y = -y: it
   holds at every extended real, so the precondition is never opened.
   The two kernel programs' frames are the generated ones, the reference's frame is its generated run with the result
   dropped, and the idealization rewrote nothing, so there is nothing to preserve. -/
import proofs.«101211_j48490180772265_1_alg».proof.Defs
import proofs.«101211_j48490180772265_1_alg».proof.Proof.Gen.Kernel
import proofs.«101211_j48490180772265_1_alg».proof.Proof.Gen.Kernel.Skeleton
import proofs.«101211_j48490180772265_1_alg».proof.Proof.Gen.Kernel.Launch
import proofs.«101211_j48490180772265_1_alg».proof.Proof.Gen.Kernel.Points
import proofs.«101211_j48490180772265_1_alg».proof.Proof.Gen.Kernel.Frame
import proofs.«101211_j48490180772265_1_alg».proof.Proof.Gen.KernelIdeal
import proofs.«101211_j48490180772265_1_alg».proof.Proof.Gen.KernelIdeal.Skeleton
import proofs.«101211_j48490180772265_1_alg».proof.Proof.Gen.KernelIdeal.Launch
import proofs.«101211_j48490180772265_1_alg».proof.Proof.Gen.KernelIdeal.Points
import proofs.«101211_j48490180772265_1_alg».proof.Proof.Gen.KernelIdeal.Frame
import proofs.«101211_j48490180772265_1_alg».proof.Proof.Gen.ReferenceIdeal
import proofs.«101211_j48490180772265_1_alg».proof.Proof.Gen.Pre_finite_inputs
import proofs.«101211_j48490180772265_1_alg».proof.Proof.Gen.KernelIdeal.Value
import proofs.«101211_j48490180772265_1_alg».proof.Proof.Gen.ReferenceIdeal.Run
import proofs.«101211_j48490180772265_1_alg».proof.Proof.Gen.ReferenceIdeal.Read
import proofs.«101211_j48490180772265_1_alg».proof.Proof.NegMse
import proofs.«101211_j48490180772265_1_alg».proof.Proof.RefAsNegMse
import proofs.«101211_j48490180772265_1_alg».proof.Proof.KernelBlock
import proofs.«101211_j48490180772265_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `NegMse.arr` of the
    kernel's arguments: the kernel by its run read block by block, the reference by its run read one operation at
    a time, the arguments' agreement rewritten. -/
theorem algebraic : Cert.algebraic_KernelIdeal_ReferenceIdeal := by
  intro m ρ m' ρ' _ hagree
  refine ⟨fun c => Cert.NegMse.arr (Cert.KernelIdeal.Whole.xArr m c) (Cert.KernelIdeal.Whole.wArr m c)
      (Cert.KernelIdeal.Whole.bArr m c) (Cert.KernelIdeal.Whole.pArr m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.AsNegMse.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
